-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S45088768 : Shape := ⟨1, ![45088768]⟩
abbrev S352256 : Shape := ⟨1, ![352256]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S352256 : S_.BroadcastsInDim S352256 (![] : Fin 0 → Fin S352256.rank)
  reducesTo_S352256_S_d0 : S352256.ReducesTo [0] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S45088768 32) (main_arg2 : FVec F S352256 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S352256 .f32 := Host.absf main_arg2
  let main_cst_0 : FVec F S_ .f32 := constant S_ .f32 0x7F800000#32
  let main_v5 : FVec F S352256 .f32 := broadcastInDim S352256 ![] bcast_S_S352256 main_cst_0
  let main_v6 : IVec S352256 1 := cmpf .olt main_v4 main_v5
  let main_c_1 : IVec S_ 1 := constantI S_ 1 1#1
  let main_v7 : IVec S_ 1 := (fun x v => Host.reduce IntOp.andi x v reducesTo_S352256_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S45088768 : Shape := ⟨1, ![45088768]⟩
abbrev S352256 : Shape := ⟨1, ![352256]⟩
abbrev S11008 : Shape := ⟨1, ![11008]⟩
abbrev S8192x4096 : Shape := ⟨2, ![8192, 4096]⟩
abbrev S11008x32x128 : Shape := ⟨3, ![11008, 32, 128]⟩
abbrev S11008x32 : Shape := ⟨2, ![11008, 32]⟩
abbrev S1x11008 : Shape := ⟨2, ![1, 11008]⟩
abbrev S128x32x128 : Shape := ⟨3, ![128, 32, 128]⟩
abbrev S128x32 : Shape := ⟨2, ![128, 32]⟩
abbrev S128x32x1 : Shape := ⟨3, ![128, 32, 1]⟩
abbrev S11008x4096 : Shape := ⟨2, ![11008, 4096]⟩
abbrev S8192x11008 : Shape := ⟨2, ![8192, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S4x2048x11008 : Shape := ⟨3, ![4, 2048, 11008]⟩

abbrev nBuf : Space → Nat
  | .hbm => 13
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S45088768, .i32⟩
  | .hbm, ⟨2, _⟩ => ⟨S352256, .f32⟩
  | .hbm, ⟨3, _⟩ => ⟨S11008, .f32⟩
  | .hbm, ⟨4, _⟩ => ⟨S8192x4096, .f32⟩
  | .hbm, ⟨5, _⟩ => ⟨S11008x32x128, .i32⟩
  | .hbm, ⟨6, _⟩ => ⟨S11008x32, .f32⟩
  | .hbm, ⟨7, _⟩ => ⟨S1x11008, .f32⟩
  | .hbm, ⟨8, _⟩ => ⟨S8192x4096, .bf16⟩
  | .hbm, ⟨9, _⟩ => ⟨S11008x32x128, .bf16⟩
  | .hbm, ⟨10, _⟩ => ⟨S11008x4096, .bf16⟩
  | .hbm, ⟨11, _⟩ => ⟨S8192x11008, .f32⟩
  | .hbm, ⟨12, _⟩ => ⟨S4x2048x11008, .f32⟩
  | .local _ .vmem, ⟨0, _⟩ => ⟨S128x32x128, .i32⟩
  | .local _ .vmem, ⟨1, _⟩ => ⟨S128x32x128, .i32⟩
  | .local _ .vmem, ⟨2, _⟩ => ⟨S128x32, .f32⟩
  | .local _ .vmem, ⟨3, _⟩ => ⟨S128x32, .f32⟩
  | .local _ .vmem, ⟨4, _⟩ => ⟨S128x32x128, .bf16⟩
  | .local _ .vmem, ⟨5, _⟩ => ⟨S128x32x128, .bf16⟩
  | .local _ .vmem, ⟨6, _⟩ => ⟨S1024x4096, .bf16⟩
  | .local _ .vmem, ⟨7, _⟩ => ⟨S1024x4096, .bf16⟩
  | .local _ .vmem, ⟨8, _⟩ => ⟨S256x4096, .bf16⟩
  | .local _ .vmem, ⟨9, _⟩ => ⟨S256x4096, .bf16⟩
  | .local _ .vmem, ⟨10, _⟩ => ⟨S1x256, .f32⟩
  | .local _ .vmem, ⟨11, _⟩ => ⟨S1x256, .f32⟩
  | .local _ .vmem, ⟨12, _⟩ => ⟨S1024x256, .f32⟩
  | .local _ .vmem, ⟨13, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![86], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x4096_S8192x4096 : S4x2048x4096.ShapeCasts S8192x4096
  shapeCasts_S45088768_S11008x32x128 : S45088768.ShapeCasts S11008x32x128
  shapeCasts_S352256_S11008x32 : S352256.ShapeCasts S11008x32
  shapeCasts_S11008_S1x11008 : S11008.ShapeCasts S1x11008
  bitsLt_bf16_f32 : FTy.bits .bf16 < FTy.bits .f32
  inb_S128x32x128_S128x32x128_0_0_0 : ∀ a, (![0, 0, 0] : Fin 3 → Nat) a + S128x32x128.size a ≤ S128x32x128.size a
  h_S128x32x128 : 0 < S128x32x128.numel
  shapeCasts_S128x32x128_S128x32x128 : S128x32x128.ShapeCasts S128x32x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  shapeCasts_S128x32_S128x32x1 : S128x32.ShapeCasts S128x32x1
  shapeCasts_S128x32x1_S128x32x1 : S128x32x1.ShapeCasts S128x32x1
  broadcasts_S128x32x1_S128x32x128 : S128x32x1.Broadcasts S128x32x128
  packedbf16_S128x32x128_S128x32x128_0_0_0 : (Rect.unit (s := S128x32x128) ![0, 0, 0] S128x32x128.size inb_S128x32x128_S128x32x128_0_0_0).PackedRows (EltTy.packing .bf16)
  shapeCasts_S11008x32x128_S11008x4096 : S11008x32x128.ShapeCasts S11008x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x128.size a ≤ S11008x32x128.size a
  hwx0_0 : ∀ i : grid0.Coords, EltTy.bits .i32 = 32 ∨ (Rect.block (s := S11008x32x128) S128x32x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S11008x32.size a
  hwx0_1 : ∀ i : grid0.Coords, EltTy.bits .f32 = 32 ∨ (Rect.block (s := S11008x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32x128.size a ≤ S11008x32x128.size a
  hwx0_2 : ∀ i : grid0.Coords, EltTy.bits .bf16 = 32 ∨ (Rect.block (s := S11008x32x128) S128x32x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S11008x4096.size a
  hwx1_1 : ∀ i : grid1.Coords, EltTy.bits .bf16 = 32 ∨ (Rect.block (s := S11008x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x11008.size a
  hwx1_2 : ∀ i : grid1.Coords, EltTy.bits .f32 = 32 ∨ (Rect.block (s := S1x11008) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x11008.size a
  hwx1_3 : ∀ i : grid1.Coords, EltTy.bits .f32 = 32 ∨ (Rect.block (s := S8192x11008) S1024x256.size (cc1_transform_3 i) (hinb1_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v1) S128x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S45088768 : Shape := ⟨1, ![45088768]⟩
abbrev S352256 : Shape := ⟨1, ![352256]⟩
abbrev S11008 : Shape := ⟨1, ![11008]⟩
abbrev S16 : Shape := ⟨1, ![16]⟩
abbrev S_ : Shape := ⟨0, ![]⟩
abbrev S45088768x1 : Shape := ⟨2, ![45088768, 1]⟩
abbrev S352256x128 : Shape := ⟨2, ![352256, 128]⟩
abbrev S352256x1 : Shape := ⟨2, ![352256, 1]⟩
abbrev S11008x4096 : Shape := ⟨2, ![11008, 4096]⟩
abbrev S4x2048x11008 : Shape := ⟨3, ![4, 2048, 11008]⟩
abbrev S1x1x11008 : Shape := ⟨3, ![1, 1, 11008]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S45088768, .i32⟩
  | .hbm, ⟨2, _⟩ => ⟨S352256, .f32⟩
  | .hbm, ⟨3, _⟩ => ⟨S11008, .f32⟩
  | .hbm, ⟨4, _⟩ => ⟨S16, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S45088768, .i32⟩
  | .hbm, ⟨9, _⟩ => ⟨S45088768, .i32⟩
  | .hbm, ⟨10, _⟩ => ⟨S_, .i32⟩
  | .hbm, ⟨11, _⟩ => ⟨S45088768, .i32⟩
  | .hbm, ⟨12, _⟩ => ⟨S45088768, .i32⟩
  | .hbm, ⟨13, _⟩ => ⟨S_, .i32⟩
  | .hbm, ⟨14, _⟩ => ⟨S45088768, .i32⟩
  | .hbm, ⟨15, _⟩ => ⟨S45088768, .i1⟩
  | .hbm, ⟨16, _⟩ => ⟨S_, .i32⟩
  | .hbm, ⟨17, _⟩ => ⟨S45088768, .i32⟩
  | .hbm, ⟨18, _⟩ => ⟨S45088768, .i32⟩
  | .hbm, ⟨19, _⟩ => ⟨S45088768, .i32⟩
  | .hbm, ⟨20, _⟩ => ⟨S45088768x1, .i32⟩
  | .hbm, ⟨21, _⟩ => ⟨S45088768, .f32⟩
  | .hbm, ⟨22, _⟩ => ⟨S352256x128, .f32⟩
  | .hbm, ⟨23, _⟩ => ⟨S352256x1, .f32⟩
  | .hbm, ⟨24, _⟩ => ⟨S352256x128, .f32⟩
  | .hbm, ⟨25, _⟩ => ⟨S352256x128, .f32⟩
  | .hbm, ⟨26, _⟩ => ⟨S11008x4096, .f32⟩
  | .hbm, ⟨27, _⟩ => ⟨S4x2048x11008, .f32⟩
  | .hbm, ⟨28, _⟩ => ⟨S1x1x11008, .f32⟩
  | .hbm, ⟨29, _⟩ => ⟨S4x2048x11008, .f32⟩
  | .hbm, ⟨30, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_c_1 : Ref sig .tc := ⟨.hbm, 13, rfl⟩
abbrev main_v1 : Ref sig .tc := ⟨.hbm, 14, rfl⟩
abbrev main_v2 : Ref sig .tc := ⟨.hbm, 15, rfl⟩
abbrev main_c_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]

class Facts₀ : Prop where
  bcast_S_S45088768 : S_.BroadcastsInDim S45088768 (![] : Fin 0 → Fin S45088768.rank)
  bcast_S45088768_S45088768x1_0 : S45088768.BroadcastsInDim S45088768x1 (![0] : Fin 1 → Fin S45088768x1.rank)
  shapeCasts_S45088768_S352256x128 : S45088768.ShapeCasts S352256x128
  bcast_S352256_S352256x1_0 : S352256.BroadcastsInDim S352256x1 (![0] : Fin 1 → Fin S352256x1.rank)
  bcast_S352256x1_S352256x128_0_1 : S352256x1.BroadcastsInDim S352256x128 (![0, 1] : Fin 2 → Fin S352256x128.rank)
  shapeCasts_S352256x128_S11008x4096 : S352256x128.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  gather_S16_S45088768x1_S45088768_n_0_n_n_0_1_1_wf : GatherDims.WF S16 S45088768x1 S45088768 [] [0] [] [0] [] 1 ![1]
  dot_S4x2048x4096_S11008x4096_S4x2048x11008_2_1_01_0_n_n_wf : DotDims.WF S4x2048x4096 S11008x4096 S4x2048x11008 [2] [1] [0, 1] [0] [] []

variable [Facts₀]

def gather_S16_S45088768x1_S45088768_n_0_n_n_0_1_1 : GatherDims S16 S45088768x1 S45088768 where
  offsetDims := []
  collapsedSliceDims := [0]
  operandBatchingDims := []
  startIndicesBatchingDims := []
  startIndexMap := [0]
  indexVectorDim := 1
  sliceSizes := ![1]
  wf := gather_S16_S45088768x1_S45088768_n_0_n_n_0_1_1_wf
def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The mathematics both programs compute, stated once over literal shapes and the extended reals.

  A quantized word q is clipped (signed) into the code range [0, 15]; the code selects one of sixteen
  fixed values (word, as f32 patterns); the weight at output row o, input column k is that value times
  the scale of the group of 128 consecutive flat positions that o * 4096 + k lies in; the result is
  x · Wᵀ + bias:  out[b, s, o] = Σ_k x[b, s, k] * W[o, k] + bias[o].
  Nothing here needs finiteness: the two programs form the same products and the same sum.
-/
import Idealize.ShloMosaic.PureOps.Ideal
import Idealize.ShloMosaic.Lib.ValueIdx

noncomputable section

namespace Cert.Nf4

open Idealize.ShloMosaic Idealize.ShloMosaic.ValueIdx

/-- The sixteen code values, as f32 bit patterns, in code order. -/
abbrev word : Fin 16 → BitVec 32 := fun
  | 0 => 0xBF800000#32 | 1 => 0xBF3239B1#32 | 2 => 0xBF066B30#32 | 3 => 0xBECA32A0#32
  | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32
  | 12 => 0x3EE1A4B8#32 | 13 => 0x3F1007AB#32 | 14 => 0x3F3913B3#32 | 15 => 0x3F800000#32
  | _ => 0#32

/-- A word clipped, as a signed integer, into [0, 15]: min 15 (max 0 q). -/
def clip (q : BitVec 32) : BitVec 32 := IntOp.minsi 15#32 (IntOp.maxsi 0#32 q)

/-- The code a word selects: its clipped value as an index into the sixteen values. -/
def code (q : BitVec 32) : Fin 16 := ⟨min (clip q).toInt.toNat 15, by omega⟩

/-- The value a quantized word stands for. -/
def deq (q : BitVec 32) : EReal := Ideal.ofBits .f32 (word (code q))

/-- Flat position of the weight at row o, column k of the [11008, 4096] matrix. -/
def flat (o : Fin 11008) (k : Fin 4096) : Fin 45088768 := ⟨o.val * 4096 + k.val, by omega⟩

/-- The group (of 128 consecutive flat positions) that position lies in. -/
def grp (o : Fin 11008) (k : Fin 4096) : Fin 352256 := ⟨o.val * 32 + k.val / 128, by omega⟩

/-- The dequantized weight W[o, k]. -/
def weight (q : (⟨1, ![45088768]⟩ : Shape).Idx → BitVec 32) (sc : (⟨1, ![352256]⟩ : Shape).Idx → EReal)
    (o : Fin 11008) (k : Fin 4096) : EReal :=
  deq (q (ix1 (flat o k))) * sc (ix1 (grp o k))

/-- One result element: Σ_k x[b, s, k] * W[o, k] + bias[o]. -/
def out (x : (⟨3, ![4, 2048, 4096]⟩ : Shape).Idx → EReal) (q : (⟨1, ![45088768]⟩ : Shape).Idx → BitVec 32)
    (sc : (⟨1, ![352256]⟩ : Shape).Idx → EReal) (bias : (⟨1, ![11008]⟩ : Shape).Idx → EReal)
    (b : Fin 4) (s : Fin 2048) (o : Fin 11008) : EReal :=
  (∑ k : Fin 4096, x (ix3 b s k) * weight q sc o k) + bias (ix1 o)

/-- The whole result array [4, 2048, 11008] as a function of the four argument arrays. -/
def G (x : (⟨3, ![4, 2048, 4096]⟩ : Shape).Idx → EReal) (q : (⟨1, ![45088768]⟩ : Shape).Idx → BitVec 32)
    (sc : (⟨1, ![352256]⟩ : Shape).Idx → EReal) (bias : (⟨1, ![11008]⟩ : Shape).Idx → EReal) :
    (⟨3, ![4, 2048, 11008]⟩ : Shape).Idx → EReal :=
  fun j => out x q sc bias (j 0) (j 1) (j 2)

theorem G_ix3 (x : (⟨3, ![4, 2048, 4096]⟩ : Shape).Idx → EReal) (q : (⟨1, ![45088768]⟩ : Shape).Idx → BitVec 32)
    (sc : (⟨1, ![352256]⟩ : Shape).Idx → EReal) (bias : (⟨1, ![11008]⟩ : Shape).Idx → EReal)
    (b : Fin 4) (s : Fin 2048) (o : Fin 11008) : G x q sc bias (ix3 b s o) = out x q sc bias b s o := rfl

/-! ## The two stages of the kernel's program, each as one whole-array function -/

/-- The dequantized weights as the first stage lays them out, [11008, 32, 128]: element (o, g, l) is the
    value of the quantized word there times the scale at (o, g). -/
def dq (q3 : (⟨3, ![11008, 32, 128]⟩ : Shape).Idx → BitVec 32) (s2 : (⟨2, ![11008, 32]⟩ : Shape).Idx → EReal) :
    (⟨3, ![11008, 32, 128]⟩ : Shape).Idx → EReal :=
  fun j => deq (q3 j) * s2 (ix2 (n0 := 11008) (n1 := 32) (j 0) (j 1))

theorem dq_ix3 (q3 : (⟨3, ![11008, 32, 128]⟩ : Shape).Idx → BitVec 32) (s2 : (⟨2, ![11008, 32]⟩ : Shape).Idx → EReal)
    (o : Fin 11008) (g : Fin 32) (l : Fin 128) : dq q3 s2 (ix3 o g l) = deq (q3 (ix3 o g l)) * s2 (ix2 o g) := rfl

/-- The second stage, [8192, 11008]: row r of a against row n of w, summed over the 4096 columns,
    plus the bias row's entry n. -/
def mm (a : (⟨2, ![8192, 4096]⟩ : Shape).Idx → EReal) (w : (⟨2, ![11008, 4096]⟩ : Shape).Idx → EReal)
    (bias : (⟨2, ![1, 11008]⟩ : Shape).Idx → EReal) : (⟨2, ![8192, 11008]⟩ : Shape).Idx → EReal :=
  fun j => (∑ k : Fin 4096, a (ix2 (n0 := 8192) (j 0) k) * w (ix2 (n0 := 11008) (j 1) k))
    + bias (ix2 (n0 := 1) (n1 := 11008) 0 (j 1))

theorem mm_ix2 (a : (⟨2, ![8192, 4096]⟩ : Shape).Idx → EReal) (w : (⟨2, ![11008, 4096]⟩ : Shape).Idx → EReal)
    (bias : (⟨2, ![1, 11008]⟩ : Shape).Idx → EReal) (r : Fin 8192) (n : Fin 11008) :
    mm a w bias (ix2 r n) = (∑ k : Fin 4096, a (ix2 r k) * w (ix2 n k)) + bias (ix2 0 n) := rfl

end Cert.Nf4

end
-- ==== Proof.Tree.lean ====
/-
  The four-level tree of selects over the bits of a clipped code word picks the same one of the sixteen
  values as indexing the table by the code: bit 3 chooses the half, bit 2 the quarter, bit 1 the pair,
  bit 0 the entry. A clipped word is one of 0, ..., 15, so the identity is sixteen closed cases.
-/
import proofs.«408230_j51677046505998_3_alg».proof.Proof.Spec
import Mathlib.Tactic.IntervalCases

noncomputable section

namespace Cert.Nf4

open Idealize.ShloMosaic

/-- Bit test as the programs write it: the word masked by m is not zero. -/
abbrev bit (c m : BitVec 32) : BitVec 1 := IntOp.cmpi .ne (IntOp.andi c m) 0#32

/-- The tree of selects over the bits of c, its sixteen leaves the entries of v. -/
def treeOf (c : BitVec 32) (v : Fin 16 → EReal) : EReal :=
  Scalar.select (bit c 8#32)
    (Scalar.select (bit c 4#32)
      (Scalar.select (bit c 2#32)
        (Scalar.select (bit c 1#32) (v 15) (v 14))
        (Scalar.select (bit c 1#32) (v 13) (v 12)))
      (Scalar.select (bit c 2#32)
        (Scalar.select (bit c 1#32) (v 11) (v 10))
        (Scalar.select (bit c 1#32) (v 9) (v 8))))
    (Scalar.select (bit c 4#32)
      (Scalar.select (bit c 2#32)
        (Scalar.select (bit c 1#32) (v 7) (v 6))
        (Scalar.select (bit c 1#32) (v 5) (v 4)))
      (Scalar.select (bit c 2#32)
        (Scalar.select (bit c 1#32) (v 3) (v 2))
        (Scalar.select (bit c 1#32) (v 1) (v 0))))

/-- On each of the sixteen codes the tree picks that leaf. -/
theorem treeOf_ofNat (n : Nat) (h : n < 16) (v : Fin 16 → EReal) : treeOf (BitVec.ofNat 32 n) v = v ⟨n, h⟩ := by
  interval_cases n <;> rfl

/-- The value the tree of selects picks for a code word c: its leaves are the sixteen values. -/
def tree (c : BitVec 32) : EReal := treeOf c fun k => Ideal.ofBits .f32 (word k)

/-- On each of the sixteen codes the tree picks the table's entry. -/
theorem tree_ofNat (n : Nat) (h : n < 16) : tree (BitVec.ofNat 32 n) = Ideal.ofBits .f32 (word ⟨n, h⟩) :=
  treeOf_ofNat n h _

/-- A clipped word, read as a signed integer, lies in [0, 15]. -/
theorem clip_toInt (q : BitVec 32) : 0 ≤ (clip q).toInt ∧ (clip q).toInt ≤ 15 := by
  have z : (0#32 : BitVec 32).toInt = 0 := by decide
  have f : (15#32 : BitVec 32).toInt = 15 := by decide
  unfold clip IntOp.minsi IntOp.maxsi
  by_cases h0 : q.slt 0#32 = true
  · rw [if_pos h0, if_neg (by decide)]
    omega
  · rw [if_neg h0]
    by_cases h1 : (15#32 : BitVec 32).slt q = true
    · rw [if_pos h1]; omega
    · rw [if_neg h1]
      simp only [BitVec.slt, decide_eq_true_eq] at h0 h1
      omega

/-- So it is a natural number below sixteen, the same read signed or unsigned. -/
theorem clip_toNat (q : BitVec 32) : (clip q).toNat < 16 ∧ (clip q).toInt = ((clip q).toNat : Int) := by
  obtain ⟨h0, h1⟩ := clip_toInt q
  have hlt := (clip q).isLt
  rw [BitVec.toInt_eq_toNat_cond] at h0 h1 ⊢
  split at h0 <;> omega

/-- The code of a word is its clipped value. -/
theorem code_eq (q : BitVec 32) : code q = ⟨(clip q).toNat, (clip_toNat q).1⟩ := by
  obtain ⟨hlt, he⟩ := clip_toNat q
  refine Fin.ext ?_
  show min (clip q).toInt.toNat 15 = (clip q).toNat
  omega

/-- THE TREE IS THE TABLE: on a clipped word the tree of selects picks the value the word stands for. -/
theorem tree_clip (q : BitVec 32) : tree (clip q) = deq q := by
  have e : BitVec.ofNat 32 (clip q).toNat = clip q :=
    BitVec.eq_of_toNat_eq (by rw [BitVec.toNat_ofNat]; exact Nat.mod_eq_of_lt (clip q).isLt)
  have h := tree_ofNat (clip q).toNat (clip_toNat q).1
  rw [e] at h
  unfold deq
  rw [code_eq]
  exact h

end Cert.Nf4

end
-- ==== Proof.DequantRegion.lean ====
/-
  The first stage as one whole-array function: after the region, the output array [11008, 32, 128] holds at
  (o, g, l) the value of the quantized word at (o, g, l) times the scale at (o, g).
  A grid point t handles rows 128 t, ..., 128 t + 127: the word block, the scale block and the output block of
  point t all start at row 128 t, so what the point writes back is that block of the whole-array function,
  and the 86 blocks tile the array.
-/
import proofs.«408230_j51677046505998_3_alg».proof.Proof.Gen.KernelIdeal.Frame
import proofs.«408230_j51677046505998_3_alg».proof.Proof.Tree
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem zero3 : (![0, 0, 0] : Fin 3 → Nat) = fun _ => 0 := funext fun a => by fin_cases a <;> rfl
theorem zero2 : (![0, 0] : Fin 2 → Nat) = fun _ => 0 := funext fun a => by fin_cases a <;> rfl

/-- The scale block [128, 32], given a trailing unit axis and broadcast along the 128 lanes, read at (p, g, l):
    the scale at (p, g). -/
theorem scale_lane (x1 : Vec Ideal S128x32 .f32) (p : Fin 128) (g : Fin 32) (l : Fin 128) :
    broadcastTo S128x32x128 (shapeCast S128x32x1 (shapeCast S128x32x1 (shapeCast S128x32 x1 shapeCasts_S128x32_S128x32)
        shapeCasts_S128x32_S128x32x1) shapeCasts_S128x32x1_S128x32x1) broadcasts_S128x32x1_S128x32x128 (ix3 p g l)
      = x1 (ix2 p g) := by
  simp only [shapeCast_self]
  refine (broadcastTo_apply _ _ (ix3 p g l) (ix3 p g (0 : Fin 1)) ?_).trans ?_
  · intro a
    match a with
    | ⟨0, _⟩ => rfl
    | ⟨1, _⟩ => rfl
    | ⟨2, _⟩ => rfl
  · refine shapeCast_apply x1 _ (ix3 p g (0 : Fin 1)) (ix2 p g) ?_
    rw [Shape.rowMajor_val_two, Shape.rowMajor_val_three]
    show p.val * 32 + g.val = (p.val * 32 + g.val) * 1 + 0
    omega

/-- The clipped word at an index. -/
theorem clip_ix (x0 : Vec Ideal S128x32x128 .i32) (y : S128x32x128.Idx) : k0_pay2 x0 y = Cert.Nf4.clip (x0 y) := by
  unfold k0_pay2
  rw [shapeCast_self x0]
  rfl

/-- THE BODY'S ARITHMETIC AT AN INDEX: the stored value at (p, g, l) is the value the word there stands for
    times the scale at (p, g). The selects are the tree over the clipped word's bits with the sixteen values
    as leaves; the scale reaches lane l by the cast and the broadcast. -/
theorem dequant_payload_ix (x0 : Vec Ideal S128x32x128 .i32) (x1 : Vec Ideal S128x32 .f32) (p : Fin 128) (g : Fin 32) (l : Fin 128) :
    k0_pay1 (k0_pay3 x0) (k0_pay4 x0) (k0_pay5 x0) (k0_pay6 x0) (k0_pay7 x0) (k0_pay8 x0) (k0_pay9 x0) (k0_pay10 x0)
        (k0_pay11 (F := Ideal)) (k0_pay12 (F := Ideal)) x1 (ix3 p g l)
      = Cert.Nf4.deq (x0 (ix3 p g l)) * x1 (ix2 p g) := by
  have h : k0_pay1 (k0_pay3 x0) (k0_pay4 x0) (k0_pay5 x0) (k0_pay6 x0) (k0_pay7 x0) (k0_pay8 x0) (k0_pay9 x0) (k0_pay10 x0)
        (k0_pay11 (F := Ideal)) (k0_pay12 (F := Ideal)) x1 (ix3 p g l)
      = Cert.Nf4.treeOf (k0_pay2 x0 (ix3 p g l)) (fun k => Ideal.ofBits .f32 (Cert.Nf4.word k)) * x1 (ix2 p g) := by
    rw [← scale_lane x1 p g l]
    rfl
  rw [h, clip_ix]
  exact congrArg (· * x1 (ix2 p g)) (Cert.Nf4.tree_clip (x0 (ix3 p g l)))

/-- The same at any index of the block. -/
theorem dequant_payload (x0 : Vec Ideal S128x32x128 .i32) (x1 : Vec Ideal S128x32 .f32) (y : S128x32x128.Idx) :
    k0_pay1 (k0_pay3 x0) (k0_pay4 x0) (k0_pay5 x0) (k0_pay6 x0) (k0_pay7 x0) (k0_pay8 x0) (k0_pay9 x0) (k0_pay10 x0)
        (k0_pay11 (F := Ideal)) (k0_pay12 (F := Ideal)) x1 y
      = Cert.Nf4.deq (x0 y) * x1 (ix2 (n0 := 128) (n1 := 32) (y 0) (y 1)) := by
  obtain ⟨p, g, l, rfl⟩ : ∃ (p : Fin 128) (g : Fin 32) (l : Fin 128), y = ix3 p g l := ⟨y 0, y 1, y 2, eq_ix3 y⟩
  exact dequant_payload_ix x0 x1 p g l

/-! ## From blocks to the array -/

/-- The printed index maps over the grid: the three windows' blocks at a point start at the same row block, and
    lie at block 0 on the other axes; the row block is below 86. -/
theorem index_facts0 : ∀ t : Fin cfg0.N, win0_0.index t (0 : Fin 3) = win0_2.index t (0 : Fin 3)
    ∧ win0_0.index t (1 : Fin 3) = 0 ∧ win0_0.index t (2 : Fin 3) = 0
    ∧ win0_1.index t (0 : Fin 2) = win0_2.index t (0 : Fin 3) ∧ win0_1.index t (1 : Fin 2) = 0
    ∧ win0_2.index t (1 : Fin 3) = 0 ∧ win0_2.index t (2 : Fin 3) = 0 ∧ win0_2.index t (0 : Fin 3) ≤ 85 :=
  (by decide +kernel : ∀ t : Fin grid0.N, _)

/-- Every row block is some point's. -/
theorem index_onto0 : ∀ q0 : Fin 86, ∃ t : Fin cfg0.N, win0_2.index t = ![q0.val, 0, 0] :=
  (by decide +kernel : ∀ q0 : Fin 86, ∃ t : Fin grid0.N, win0_2.index t = ![q0.val, 0, 0])

variable (V : (c : Dev nD) → (b : Ref sig .tc) → Buf (Elt Ideal) ((c : Thread nD τ).loc b))

/-- WHAT POINT t WRITES BACK is block t of the whole-array function of the two input arrays as the region
    finds them. -/
theorem flushed0_eq (c : Dev nD) (t : Fin cfg0.N) :
    (dat0 V c).flushed 2 t = ((cfg0.win 2).blk t).view.read (Elt Ideal) (Cert.Nf4.dq (V c main_v1) (V c main_v2)) := by
  show (cfg0.win 2).cut (grid0.coords t) ((dat0 V c).after 2 t) = _
  rw [after0_2]
  unfold out0_2
  rw [View.canon_unit_zero zero3]
  simp only [View.ld_unit_zero (S := S128x32x128) zero3, View.ld_unit_zero (S := S128x32) zero2]
  obtain ⟨e0, e1, e2, e3, e4, e5, e6, e7⟩ := index_facts0 t
  funext j
  refine (dequant_payload (iblk0 V c 0 t) (iblk0 V c 1 t) j).trans ?_
  show Cert.Nf4.deq (V c main_v1 (((cfg0.win 0).blk t).view.emb j))
        * V c main_v2 (((cfg0.win 1).blk t).view.emb (ix2 (n0 := 128) (n1 := 32) (j 0) (j 1)))
      = Cert.Nf4.deq (V c main_v1 (((cfg0.win 2).blk t).view.emb j))
        * V c main_v2 (ix2 (n0 := 11008) (n1 := 32) ((((cfg0.win 2).blk t).view.emb j) 0) ((((cfg0.win 2).blk t).view.emb j) 1))
  have h0 : ((cfg0.win 0).blk t).view.emb j = ((cfg0.win 2).blk t).view.emb j := by
    funext a; apply Fin.ext
    match a with
    | ⟨0, _⟩ => show win0_0.index t (0 : Fin 3) * 128 + 1 * (j 0).val = win0_2.index t (0 : Fin 3) * 128 + 1 * (j 0).val; omega
    | ⟨1, _⟩ => show win0_0.index t (1 : Fin 3) * 32 + 1 * (j 1).val = win0_2.index t (1 : Fin 3) * 32 + 1 * (j 1).val; omega
    | ⟨2, _⟩ => show win0_0.index t (2 : Fin 3) * 128 + 1 * (j 2).val = win0_2.index t (2 : Fin 3) * 128 + 1 * (j 2).val; omega
  have h1 : ((cfg0.win 1).blk t).view.emb (ix2 (n0 := 128) (n1 := 32) (j 0) (j 1))
      = ix2 (n0 := 11008) (n1 := 32) ((((cfg0.win 2).blk t).view.emb j) 0) ((((cfg0.win 2).blk t).view.emb j) 1) := by
    funext a; apply Fin.ext
    match a with
    | ⟨0, _⟩ => show win0_1.index t (0 : Fin 2) * 128 + 1 * (j 0).val = win0_2.index t (0 : Fin 3) * 128 + 1 * (j 0).val; omega
    | ⟨1, _⟩ => show win0_1.index t (1 : Fin 2) * 32 + 1 * (j 1).val = win0_2.index t (1 : Fin 3) * 32 + 1 * (j 1).val; omega
  rw [h0, h1]

/-- An index of the array is in point t's block iff each coordinate is in the block's range on its axis. -/
theorem mem_block0 (t : Fin cfg0.N) (i : S11008x32x128.Idx) :
    i ∈ ((cfg0.win 2).blk t).view.set ↔ ∀ a : Fin 3, win0_2.index t a * S128x32x128.size a ≤ (i a).val
      ∧ (i a).val < win0_2.index t a * S128x32x128.size a + S128x32x128.size a := by
  show i ∈ ((View.whole main_v5).slice (win0_2.rect t)).set ↔ _
  rw [View.set_slice_whole, Rect.mem_set_unit]
  exact Iff.rfl

/-- The 86 row blocks tile the array: row r lies in the block of the point whose row block is r / 128. -/
theorem cover0 (i : S11008x32x128.Idx) :
    ∃ t : Fin cfg0.N, (cfg0.win 2).flush t = true ∧ i ∈ ((cfg0.win 2).blk t).view.set := by
  have hi0 : (i 0).val < 11008 := (i 0).isLt
  have hi1 : (i 1).val < 32 := (i 1).isLt
  have hi2 : (i 2).val < 128 := (i 2).isLt
  obtain ⟨t, ht⟩ := index_onto0 ⟨(i 0).val / 128, by omega⟩
  have q0 : win0_2.index t (0 : Fin 3) = (i 0).val / 128 := congrFun ht 0
  have q1 : win0_2.index t (1 : Fin 3) = 0 := congrFun ht 1
  have q2 : win0_2.index t (2 : Fin 3) = 0 := congrFun ht 2
  refine ⟨t, flush0_2 t, ?_⟩
  rw [mem_block0]
  intro a
  match a with
  | ⟨0, _⟩ => show win0_2.index t (0 : Fin 3) * 128 ≤ (i 0).val ∧ (i 0).val < win0_2.index t (0 : Fin 3) * 128 + 128; omega
  | ⟨1, _⟩ => show win0_2.index t (1 : Fin 3) * 32 ≤ (i 1).val ∧ (i 1).val < win0_2.index t (1 : Fin 3) * 32 + 32; omega
  | ⟨2, _⟩ => show win0_2.index t (2 : Fin 3) * 128 ≤ (i 2).val ∧ (i 2).val < win0_2.index t (2 : Fin 3) * 128 + 128; omega

/-- THE FIRST STAGE'S ARRAY after the region: the dequantized weights, laid out [11008, 32, 128]. -/
theorem region0_value (c : Dev nD) :
    (dat0 V c).arrAt 2 cfg0.N = Cert.Nf4.dq (V c main_v1) (V c main_v2) :=
  (dat0 V c).arrAt_eq_of_cover 2 _ (fun t _ => flushed0_eq V c t) cover0

end Cert.KernelIdeal.Hand

end
-- ==== Proof.MatmulRegion.lean ====
/-
  The second stage of the kernel program (the matrix product region), read as one whole-array function.

  Its grid is 8 x 43. At the point with block row i and block column j the body loads rows [1024 i, 1024 (i + 1)) of the
  first array ([8192, 4096]), rows [256 j, 256 (j + 1)) of the second ([11008, 4096]) and columns [256 j, 256 (j + 1)) of
  the bias row ([1, 11008]), contracts the two blocks over their 4096 columns into a zero accumulator, adds the bias row
  to every row, and writes the [1024, 256] result to block (i, j) of the output. At the extended reals the value at
  (p, q) of that block is  (sum over k of a[1024 i + p, k] * w[256 j + q, k]) + bias[0, 256 j + q] : entry
  (1024 i + p, 256 j + q) of the product of the whole arrays. The 8 x 43 blocks tile the output, so after the region
  the output array is that product everywhere.
-/
import proofs.«408230_j51677046505998_3_alg».proof.Proof.Gen.KernelIdeal.Frame
import proofs.«408230_j51677046505998_3_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## The contraction's operand indices, axis by axis -/

theorem lhs_row (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl

theorem lhs_col (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q

theorem rhs_row (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl

theorem rhs_col (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-- The block product at an index: row p of the first block against row q of the second, over the 4096 columns. -/
theorem block_matmul_apply (x0 : FVec Ideal S1024x4096 .bf16) (x1 : FVec Ideal S256x4096 .bf16) (p : Fin 1024) (q : Fin 256) :
    matmul (F := Ideal) dot_S1024x4096_S256x4096_S1024x256_1_1_0_0_n_n none x0 x1 (constant (F := Ideal) S1024x256 .f32 0x00000000#32) (ix2 p q)
      = ∑ k : Fin 4096, x0 (ix2 p k) * x1 (ix2 q k) := by
  refine (Ideal.matmul_constant_zero_apply dot_S1024x4096_S256x4096_S1024x256_1_1_0_0_n_n none x0 x1 (ix2 p q)).trans ?_
  rw [← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 p q) ((contrEquiv1 dot_S1024x4096_S256x4096_S1024x256_1_1_0_0_n_n 4096 rfl rfl).symm k) = ix2 p k := funext fun a => Fin.ext (by
    match a with
    | ⟨0, _⟩ => exact lhs_row _ _
    | ⟨1, _⟩ => exact (lhs_col _ _).trans hk)
  have er : dot_S1024x4096_S256x4096_S1024x256_1_1_0_0_n_n.rhsIdx (ix2 p q) ((contrEquiv1 dot_S1024x4096_S256x4096_S1024x256_1_1_0_0_n_n 4096 rfl rfl).symm k) = ix2 q k := funext fun a => Fin.ext (by
    match a with
    | ⟨0, _⟩ => exact rhs_row _ _
    | ⟨1, _⟩ => exact (rhs_col _ _).trans hk)
  rw [el, er]

/-- The body's arithmetic at an index: the block product plus the bias row's entry of that column. -/
theorem payload_apply (x0 : Vec Ideal S1024x4096 .bf16) (x1 : Vec Ideal S256x4096 .bf16) (x2 : Vec Ideal S1x256 .f32)
    (p : Fin 1024) (q : Fin 256) :
    k1_pay1 x0 x1 x2 (ix2 p q) = (∑ k : Fin 4096, x0 (ix2 p k) * x1 (ix2 q k)) + x2 (ix2 0 q) := by
  unfold k1_pay1
  rw [addf_apply, shapeCast_self, shapeCast_self, shapeCast_self, block_matmul_apply]
  congr 1
  refine broadcastTo_apply _ _ _ _ fun a => ?_
  match a with
  | ⟨0, _⟩ => rfl
  | ⟨1, _⟩ => rfl

/-! ## The grid: how the four windows' block indices move together -/

/-- The printed index maps, decided over the 8 x 43 grid: the first operand's block row is the result's, the second
    operand's block row and the bias row's block column are the result's block column, every other block index is
    zero, and the result's block indices are the point's quotient and remainder by 43. -/
theorem index_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) = t.val / 43
    ∧ win1_3.index t (1 : Fin 2) = t.val % 43 :=
  (by decide +kernel : ∀ t : Fin grid1.N, _)

/-! ## What one grid point writes back -/

/-- One entry of a result block: when row p of the first loaded block is row r of the first array, row q of the
    second loaded block is row n of the second array, and the bias block's entry q is the bias row's entry n, the
    body's value at (p, q) is the whole-array product at (r, n). -/
theorem payload_block (A : (⟨2, ![8192, 4096]⟩ : Shape).Idx → EReal) (W : (⟨2, ![11008, 4096]⟩ : Shape).Idx → EReal)
    (B : (⟨2, ![1, 11008]⟩ : Shape).Idx → EReal)
    (x0 : Vec Ideal S1024x4096 .bf16) (x1 : Vec Ideal S256x4096 .bf16) (x2 : Vec Ideal S1x256 .f32)
    (r : Fin 8192) (n : Fin 11008) (p : Fin 1024) (q : Fin 256)
    (h0 : ∀ k : Fin 4096, x0 (ix2 p k) = A (ix2 r k))
    (h1 : ∀ k : Fin 4096, x1 (ix2 q k) = W (ix2 n k))
    (h2 : x2 (ix2 0 q) = B (ix2 0 n)) :
    k1_pay1 x0 x1 x2 (ix2 p q) = Cert.Nf4.mm A W B (ix2 r n) := by
  rw [payload_apply, Cert.Nf4.mm_ix2, h2]
  congr 1
  exact Finset.sum_congr rfl fun k _ => by rw [h0 k, h1 k]

theorem offsets_zero : (![0, 0] : Fin 2 → Nat) = fun _ => 0 := funext fun a => by fin_cases a <;> rfl

section
variable (V : (c : Dev nD) → (b : Ref sig .tc) → Buf (Elt Ideal) ((c : Thread nD τ).loc b))

/-- What grid point t writes back is block t of the product of the three arrays as the region finds them. -/
theorem flushed_eq (c : Dev nD) (t : Fin cfg1.N) :
    (dat1 V c).flushed 3 t = ((cfg1.win 3).blk t).view.read (Elt Ideal) (Cert.Nf4.mm (V c main_v4) (V c main_v6) (V c main_v3)) := by
  show (cfg1.win 3).cut (grid1.coords t) ((dat1 V c).after 3 t) = _
  rw [after1_3]
  unfold out1_3
  rw [View.canon_unit_zero offsets_zero]
  simp only [View.ld_unit_zero (S := S1024x4096) offsets_zero, View.ld_unit_zero (S := S256x4096) offsets_zero, View.ld_unit_zero (S := S1x256) offsets_zero]
  obtain ⟨e0, e1, e2, e3, e4, e5, e6, e7⟩ := index_facts t
  have ht : t.val < 344 := t.isLt
  refine funext fun (j : S1024x256.Idx) => ?_
  obtain ⟨p, q, rfl⟩ : ∃ (p : Fin 1024) (q : Fin 256), j = ix2 p q := ⟨j 0, j 1, eq_ix2 j⟩
  show k1_pay1 (iblk1 V c 0 t) (iblk1 V c 1 t) (iblk1 V c 2 t) (ix2 p q) = Cert.Nf4.mm (V c main_v4) (V c main_v6) (V c main_v3) (((cfg1.win 3).blk t).view.emb (ix2 p q))
  have hr : win1_3.index t (0 : Fin 2) * 1024 + p.val < 8192 := by omega
  have hn : win1_3.index t (1 : Fin 2) * 256 + q.val < 11008 := by omega
  have hemb : ((cfg1.win 3).blk t).view.emb (ix2 p q)
      = ix2 (n0 := 8192) (n1 := 11008) ⟨win1_3.index t (0 : Fin 2) * 1024 + p.val, hr⟩ ⟨win1_3.index t (1 : Fin 2) * 256 + q.val, hn⟩ := by
    funext a; apply Fin.ext
    match a with
    | ⟨0, _⟩ => show win1_3.index t (0 : Fin 2) * 1024 + 1 * p.val = win1_3.index t (0 : Fin 2) * 1024 + p.val; omega
    | ⟨1, _⟩ => show win1_3.index t (1 : Fin 2) * 256 + 1 * q.val = win1_3.index t (1 : Fin 2) * 256 + q.val; omega
  rw [hemb]
  refine payload_block _ _ _ _ _ _ _ _ p q (fun k => ?_) (fun k => ?_) ?_
  · show V c main_v4 (((cfg1.win 0).blk t).view.emb (ix2 p k)) = V c main_v4 (ix2 _ k)
    refine congrArg (V c main_v4) (funext fun a => Fin.ext ?_)
    match a with
    | ⟨0, _⟩ => show win1_0.index t (0 : Fin 2) * 1024 + 1 * p.val = win1_3.index t (0 : Fin 2) * 1024 + p.val; omega
    | ⟨1, _⟩ => show win1_0.index t (1 : Fin 2) * 4096 + 1 * k.val = k.val; omega
  · show V c main_v6 (((cfg1.win 1).blk t).view.emb (ix2 q k)) = V c main_v6 (ix2 _ k)
    refine congrArg (V c main_v6) (funext fun a => Fin.ext ?_)
    match a with
    | ⟨0, _⟩ => show win1_1.index t (0 : Fin 2) * 256 + 1 * q.val = win1_3.index t (1 : Fin 2) * 256 + q.val; omega
    | ⟨1, _⟩ => show win1_1.index t (1 : Fin 2) * 4096 + 1 * k.val = k.val; omega
  · show V c main_v3 (((cfg1.win 2).blk t).view.emb (ix2 0 q)) = V c main_v3 (ix2 0 _)
    refine congrArg (V c main_v3) (funext fun a => Fin.ext ?_)
    match a with
    | ⟨0, _⟩ => show win1_2.index t (0 : Fin 2) * 1 + 1 * 0 = 0; omega
    | ⟨1, _⟩ => show win1_2.index t (1 : Fin 2) * 256 + 1 * q.val = win1_3.index t (1 : Fin 2) * 256 + q.val; omega

/-! ## From the blocks to the array -/

/-- An index of the result array is in point t's block iff each coordinate is in the block's range on its axis. -/
theorem mem_block (t : Fin cfg1.N) (i : S8192x11008.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v7).slice (win1_3.rect t)).set ↔ _
  rw [View.set_slice_whole, Rect.mem_set_unit]
  exact Iff.rfl

/-- The 8 x 43 blocks of 1024 x 256 tile the 8192 x 11008 array: entry (r, n) lies in the block of the point
    (r / 1024) * 43 + n / 256. -/
theorem covered (i : S8192x11008.Idx) : ∃ t : Fin cfg1.N, (cfg1.win 3).flush t = true ∧ i ∈ ((cfg1.win 3).blk t).view.set := by
  have hi0 : (i 0).val < 8192 := (i 0).isLt
  have hi1 : (i 1).val < 11008 := (i 1).isLt
  have hN : (i 0).val / 1024 * 43 + (i 1).val / 256 < 344 := by omega
  obtain ⟨-, -, -, -, -, -, e6, e7⟩ := index_facts ⟨(i 0).val / 1024 * 43 + (i 1).val / 256, hN⟩
  have q0 : win1_3.index ⟨(i 0).val / 1024 * 43 + (i 1).val / 256, hN⟩ (0 : Fin 2) = (i 0).val / 1024 := by rw [e6]; show ((i 0).val / 1024 * 43 + (i 1).val / 256) / 43 = _; omega
  have q1 : win1_3.index ⟨(i 0).val / 1024 * 43 + (i 1).val / 256, hN⟩ (1 : Fin 2) = (i 1).val / 256 := by rw [e7]; show ((i 0).val / 1024 * 43 + (i 1).val / 256) % 43 = _; omega
  refine ⟨⟨(i 0).val / 1024 * 43 + (i 1).val / 256, hN⟩, flush1_3 _, ?_⟩
  rw [mem_block]
  intro a
  match a with
  | ⟨0, _⟩ => show win1_3.index _ (0 : Fin 2) * 1024 ≤ (i 0).val ∧ (i 0).val < win1_3.index _ (0 : Fin 2) * 1024 + 1024; omega
  | ⟨1, _⟩ => show win1_3.index _ (1 : Fin 2) * 256 ≤ (i 1).val ∧ (i 1).val < win1_3.index _ (1 : Fin 2) * 256 + 256; omega

end

/-- THE REGION'S VALUE: after the second stage the result array holds, entry by entry, the rows of the first
    array against the rows of the second, summed over the 4096 columns, plus the bias row. -/
theorem region1_value (V : (c : Dev nD) → (b : Ref sig .tc) → Buf (Elt Ideal) ((c : Thread nD τ).loc b)) (c : Dev nD) :
    (dat1 V c).arrAt 3 cfg1.N = Cert.Nf4.mm (V c main_v4) (V c main_v6) (V c main_v3) :=
  (dat1 V c).arrAt_eq_of_cover 3 (Cert.Nf4.mm (V c main_v4) (V c main_v6) (V c main_v3)) (fun t _ => flushed_eq V c t) covered

end Cert.KernelIdeal.Hand

end
-- ==== Proof.Compose.lean ====
/-
  The two stages, with the reshapes around them, compose to the whole-array function G.
  Rows of the flattened input are (b, s) with r = b * 2048 + s; the weight matrix [11008, 4096] is the
  dequantized array [11008, 32, 128] with column k = g * 128 + l; a word's flat position is o * 4096 + k and
  its group o * 32 + k / 128. All of it is row-major index arithmetic.
-/
import proofs.«408230_j51677046505998_3_alg».proof.Proof.Spec
import Idealize.ShloMosaic.Lib.Pipeline.Value

noncomputable section

namespace Cert.Nf4

open Idealize.ShloMosaic Idealize.ShloMosaic.ValueIdx

/-- Reshapes of the four arguments, the first stage, a reshape, the second stage, a reshape: G. -/
theorem stages_eq_G (x : (⟨3, ![4, 2048, 4096]⟩ : Shape).Idx → EReal) (q : (⟨1, ![45088768]⟩ : Shape).Idx → BitVec 32)
    (sc : (⟨1, ![352256]⟩ : Shape).Idx → EReal) (bias : (⟨1, ![11008]⟩ : Shape).Idx → EReal)
    (h0 : (⟨3, ![4, 2048, 4096]⟩ : Shape).ShapeCasts ⟨2, ![8192, 4096]⟩)
    (h1 : (⟨1, ![45088768]⟩ : Shape).ShapeCasts ⟨3, ![11008, 32, 128]⟩)
    (h2 : (⟨1, ![352256]⟩ : Shape).ShapeCasts ⟨2, ![11008, 32]⟩)
    (h3 : (⟨1, ![11008]⟩ : Shape).ShapeCasts ⟨2, ![1, 11008]⟩)
    (h6 : (⟨3, ![11008, 32, 128]⟩ : Shape).ShapeCasts ⟨2, ![11008, 4096]⟩)
    (h8 : (⟨2, ![8192, 11008]⟩ : Shape).ShapeCasts ⟨3, ![4, 2048, 11008]⟩) :
    shapeCast ⟨3, ![4, 2048, 11008]⟩
        (mm (shapeCast ⟨2, ![8192, 4096]⟩ x h0)
          (shapeCast ⟨2, ![11008, 4096]⟩ (dq (shapeCast ⟨3, ![11008, 32, 128]⟩ q h1) (shapeCast ⟨2, ![11008, 32]⟩ sc h2)) h6)
          (shapeCast ⟨2, ![1, 11008]⟩ bias h3)) h8
      = G x q sc bias := by
  funext j
  obtain ⟨b, s, o, rfl⟩ : ∃ (b : Fin 4) (s : Fin 2048) (o : Fin 11008), j = ix3 b s o := ⟨j 0, j 1, j 2, eq_ix3 j⟩
  rw [G_ix3]
  have hr : b.val * 2048 + s.val < 8192 := by omega
  rw [shapeCast_apply _ h8 (ix3 b s o) (ix2 ⟨b.val * 2048 + s.val, hr⟩ o) (by
    rw [Shape.rowMajor_val_two, Shape.rowMajor_val_three]
    show (b.val * 2048 + s.val) * 11008 + o.val = (b.val * 2048 + s.val) * 11008 + o.val
    rfl)]
  rw [mm_ix2]
  unfold out
  refine congrArg₂ (· + ·) (Finset.sum_congr rfl fun k _ => congrArg₂ (· * ·) ?_ ?_) ?_
  · refine shapeCast_apply x h0 _ (ix3 b s k) ?_
    rw [Shape.rowMajor_val_two, Shape.rowMajor_val_three]
    show (b.val * 2048 + s.val) * 4096 + k.val = (b.val * 2048 + s.val) * 4096 + k.val
    rfl
  · have hg : k.val / 128 < 32 := by omega
    have hl : k.val % 128 < 128 := by omega
    rw [shapeCast_apply _ h6 (ix2 o k) (ix3 o ⟨k.val / 128, hg⟩ ⟨k.val % 128, hl⟩) (by
      rw [Shape.rowMajor_val_two, Shape.rowMajor_val_three]
      show (o.val * 32 + k.val / 128) * 128 + k.val % 128 = o.val * 4096 + k.val
      omega)]
    rw [dq_ix3]
    unfold weight
    refine congrArg₂ (· * ·) (congrArg deq ?_) ?_
    · refine shapeCast_apply q h1 _ (ix1 (flat o k)) ?_
      rw [Shape.rowMajor_val_one, Shape.rowMajor_val_three]
      show o.val * 4096 + k.val = (o.val * 32 + k.val / 128) * 128 + k.val % 128
      omega
    · refine shapeCast_apply sc h2 _ (ix1 (grp o k)) ?_
      rw [Shape.rowMajor_val_one, Shape.rowMajor_val_two]
      show o.val * 32 + k.val / 128 = o.val * 32 + k.val / 128
      rfl
  · refine shapeCast_apply bias h3 _ (ix1 o) ?_
    rw [Shape.rowMajor_val_one, Shape.rowMajor_val_two]
    show o.val = 0 * 11008 + o.val
    omega

end Cert.Nf4

end
-- ==== Proof.KernelValue.lean ====
/-
  The kernel's program read as one function of its four arguments.
  Its result array is a reshape of the second stage's output; the second stage reads the flattened input
  (whose cast to a narrower float format is the identity on extended reals), the reshaped output of the first
  stage, and the bias as a row; the first stage reads the reshaped words and scales. Each boundary between the
  host's reshapes and a stage is read off the run's contents, and the composite is the function G.
-/
import proofs.«408230_j51677046505998_3_alg».proof.Proof.Gen.KernelIdeal.Frame
import proofs.«408230_j51677046505998_3_alg».proof.Proof.DequantRegion
import proofs.«408230_j51677046505998_3_alg».proof.Proof.MatmulRegion
import proofs.«408230_j51677046505998_3_alg».proof.Proof.Compose
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## The arrays each stage finds when it is entered -/

/-- The first stage finds the quantized words reshaped to [11008, 32, 128]. -/
theorem entry0_words (c : Dev nD) : V1 m ρ c main_v1
    = shapeCast S11008x32x128 (m ((c : Thread nD τ).loc main_arg1)) shapeCasts_S45088768_S11008x32x128 := by
  show StableHlo.after hostOps0 (W0 m ρ c) (Proc.devRef .tc main_v1) = _
  after_results
  rfl

/-- and the scales reshaped to [11008, 32]. -/
theorem entry0_scales (c : Dev nD) : V1 m ρ c main_v2
    = shapeCast S11008x32 (m ((c : Thread nD τ).loc main_arg2)) shapeCasts_S352256_S11008x32 := by
  show StableHlo.after hostOps0 (W0 m ρ c) (Proc.devRef .tc main_v2) = _
  after_results
  rfl

/-- The second stage finds the bias as a row [1, 11008]: no operation and no region in between writes it. -/
theorem entry1_bias (c : Dev nD) : V3 m ρ c main_v3
    = shapeCast S1x11008 (m ((c : Thread nD τ).loc main_arg3)) shapeCasts_S11008_S1x11008 := by
  show StableHlo.after hostOps1 (W2 m ρ c) (Proc.devRef .tc main_v3) = _
  after_results
  rw [W2_of_ne m ρ c main_v3 (by decide)]
  show StableHlo.after hostOps0 (W0 m ρ c) (Proc.devRef .tc main_v3) = _
  after_results
  rfl

/-- It finds the input flattened to [8192, 4096]; the change of float format is the identity. -/
theorem entry1_x (c : Dev nD) : V3 m ρ c main_v4
    = shapeCast S8192x4096 (m ((c : Thread nD τ).loc main_arg0)) shapeCasts_S4x2048x4096_S8192x4096 := by
  show StableHlo.after hostOps1 (W2 m ρ c) (Proc.devRef .tc main_v4) = _
  after_results
  rw [W2_of_ne m ρ c main_v4 (by decide)]
  show StableHlo.after hostOps0 (W0 m ρ c) (Proc.devRef .tc main_v4) = _
  after_results
  rfl

/-- And it finds the first stage's output array reshaped to [11008, 4096]. -/
theorem entry1_weights (c : Dev nD) : V3 m ρ c main_v6
    = shapeCast S11008x4096 ((dat0 (V1 m ρ) c).arrAt 2 cfg0.N) shapeCasts_S11008x32x128_S11008x4096 := by
  show StableHlo.after hostOps1 (W2 m ρ c) (Proc.devRef .tc main_v6) = _
  after_results
  rw [W2_arr m ρ c 2]
  rfl

/-- The result array is the second stage's output array reshaped to [4, 2048, 11008]. -/
theorem result_eq (c : Dev nD) : W5 m ρ c (Proc.devRef .tc main_v8)
    = shapeCast S4x2048x11008 ((dat1 (V3 m ρ) c).arrAt 3 cfg1.N) shapeCasts_S8192x11008_S4x2048x11008 := by
  show StableHlo.after hostOps2 (W4 m ρ c) (Proc.devRef .tc main_v8) = _
  after_results
  rw [W4_arr m ρ c 3]
  rfl

/-! ## The composite -/

/-- THE KERNEL'S VALUE: the result array after the run is G of the four argument arrays as launched. -/
theorem kernel_value (c : Dev nD) : W5 m ρ c (Proc.devRef .tc main_v8)
    = Cert.Nf4.G (m ((c : Thread nD τ).loc main_arg0)) (m ((c : Thread nD τ).loc main_arg1))
        (m ((c : Thread nD τ).loc main_arg2)) (m ((c : Thread nD τ).loc main_arg3)) := by
  rw [result_eq, region1_value, entry1_x, entry1_weights, entry1_bias, region0_value, entry0_words, entry0_scales]
  exact Cert.Nf4.stages_eq_G _ _ _ _ _ _ _ _ _ _

end Cert.KernelIdeal.Hand

end
-- ==== Proof.Reference.lean ====
import proofs.«408230_j51677046505998_3_alg».proof.Proof.Gen.ReferenceIdeal
import proofs.«408230_j51677046505998_3_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem
open Idealize.ShloMosaic.StableHlo Idealize.ShloMosaic.ValueIdx

/-! ## Words: the clip and the select after it -/

/-- A clipped word, read signed, lies in [0, 15]. -/
theorem clip_range (q : BitVec 32) : 0 ≤ (Cert.Nf4.clip q).toInt ∧ (Cert.Nf4.clip q).toInt ≤ 15 := by
  have h15 : (15#32 : BitVec 32).toInt = 15 := by decide
  have h0 : (0#32 : BitVec 32).toInt = 0 := by decide
  have hm : 0 ≤ (IntOp.maxsi 0#32 q).toInt := by
    unfold IntOp.maxsi
    split
    · omega
    · next h => simp only [BitVec.slt, decide_eq_true_eq] at h; omega
  unfold Cert.Nf4.clip IntOp.minsi
  split
  · omega
  · next h => simp only [BitVec.slt, decide_eq_true_eq] at h; omega

/-- A clipped word is not negative, so its signed comparison with zero is the bit 0. -/
theorem clip_not_neg (q : BitVec 32) : IntOp.cmpi .slt (Cert.Nf4.clip q) 0#32 = 0#1 := by
  have h := (clip_range q).1
  have h0 : (0#32 : BitVec 32).toInt = 0 := by decide
  have hs : (Cert.Nf4.clip q).slt 0#32 = false := by
    simp only [BitVec.slt, decide_eq_false_iff_not]; omega
  unfold IntOp.cmpi
  simp only [hs]
  rfl

/-- The sixteen table words are the sixteen code values. -/
theorem lit0_eq_word : ∀ c : Fin 16, lit0 c = Cert.Nf4.word c := by decide

/-! ## The gather of the sixteen-entry table at the column of start indices -/

/-- The result element at position p is the table at the start index found at (p, 0), read signed and clamped
    into [0, 15] (c names that entry): the one operand axis is collapsed, nothing is batched, and the index vector has one component. -/
theorem gather_apply {α : Type} (x : S16.Idx → α) (idx : IVec S45088768x1 32) (p : Fin 45088768) (c : Fin 16)
    (hc : c.val = min (idx (ix2 p 0)).toInt.toNat 15) :
    Host.gather gather_S16_S45088768x1_S45088768_n_0_n_n_0_1_1 x idx (ix1 p) = x (ix1 c) := by
  unfold Host.gather
  congr 1
  funext a
  obtain rfl : a = 0 := Subsingleton.elim _ _
  refine Fin.ext ?_
  show gather_S16_S45088768x1_S45088768_n_0_n_n_0_1_1.start (ix1 p) idx 0
      + gather_S16_S45088768x1_S45088768_n_0_n_n_0_1_1.batchCoord (ix1 p) 0
      + gather_S16_S45088768x1_S45088768_n_0_n_n_0_1_1.offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S16_S45088768x1_S45088768_n_0_n_n_0_1_1.startIndexMap from List.mem_singleton.mpr rfl)]
  have hsi : gather_S16_S45088768x1_S45088768_n_0_n_n_0_1_1.siIdx (ix1 p)
      ⟨List.idxOf (0 : Fin 1) gather_S16_S45088768x1_S45088768_n_0_n_n_0_1_1.startIndexMap,
        List.idxOf_lt_length_iff.2 (List.mem_singleton.mpr rfl)⟩ = ix2 p 0 := by
    funext b; refine Fin.ext ?_
    match b with
    | ⟨0, _⟩ => rfl
    | ⟨1, _⟩ => rfl
  rw [hsi]
  exact hc.symm

/-! ## The stages of the program as whole-array functions, each read at an index -/

/-- The quantized words clipped: the minimum with the broadcast upper bound of the maximum with the
    broadcast lower bound. -/
def clipV (q : IVec S45088768 32) : IVec S45088768 32 :=
  minsi (broadcastInDim S45088768 ![] bcast_S_S45088768 (id (constantI S_ 32 15#32)))
    (maxsi (broadcastInDim S45088768 ![] bcast_S_S45088768 (id (constantI S_ 32 0#32))) q)

/-- Element by element it is the clip of the word. -/
theorem clipV_apply (q : IVec S45088768 32) (i : S45088768.Idx) : clipV q i = Cert.Nf4.clip (q i) := rfl

/-- The column of start indices: a clipped word below zero would have sixteen added (none is), and the
    result is laid out as one column. -/
def startV (q : IVec S45088768 32) : IVec S45088768x1 32 :=
  broadcastInDim S45088768x1 ![0] bcast_S45088768_S45088768x1_0
    (select (cmpi .slt (clipV q) (broadcastInDim S45088768 ![] bcast_S_S45088768 (constantI S_ 32 0#32)))
      (addi (clipV q) (broadcastInDim S45088768 ![] bcast_S_S45088768 (constantI S_ 32 16#32))) (clipV q))

/-- The start index at row p is the clipped word at p: the select takes its second branch. -/
theorem startV_apply (q : IVec S45088768 32) (p : Fin 45088768) :
    startV q (ix2 p 0) = Cert.Nf4.clip (q (ix1 p)) := by
  unfold startV
  rw [broadcastInDim_apply (![0]) bcast_S45088768_S45088768x1_0 _ (ix2 p 0) (ix1 p)
    (fun a => by match a with | ⟨0, _⟩ => rfl)]
  rw [select_apply]
  show Scalar.select (IntOp.cmpi .slt (Cert.Nf4.clip (q (ix1 p))) 0#32) _ _ = _
  rw [clip_not_neg, select_zero]
  rfl

/-- The sixteen-entry table of values. -/
def tableV : FVec Ideal S16 .f32 := fun i => FloatOps.ofBits (F := Ideal) .f32 (lit0 (S16.rowMajor i))

/-- Its entry c is the c-th code value. -/
theorem tableV_apply (c : Fin 16) : tableV (ix1 c) = Ideal.ofBits .f32 (Cert.Nf4.word c) := by
  unfold tableV
  have hc : S16.rowMajor (ix1 c) = c := Fin.ext (by rw [Shape.rowMajor_val_one])
  rw [hc, lit0_eq_word]
  rfl

/-- The table gathered at the start indices: one value per quantized word. -/
def valuesV (q : IVec S45088768 32) : FVec Ideal S45088768 .f32 :=
  Host.gather gather_S16_S45088768x1_S45088768_n_0_n_n_0_1_1 tableV (startV q)

/-- At position p it is the value the word at p stands for. -/
theorem valuesV_apply (q : IVec S45088768 32) (p : Fin 45088768) :
    valuesV q (ix1 p) = Cert.Nf4.deq (q (ix1 p)) := by
  unfold valuesV
  have hc : (Cert.Nf4.code (q (ix1 p))).val = min (startV q (ix2 p 0)).toInt.toNat 15 := by
    rw [startV_apply]
    rfl
  rw [gather_apply tableV (startV q) p (Cert.Nf4.code (q (ix1 p))) hc, tableV_apply]
  rfl

/-- The dequantized weights as the matrix [11008, 4096]: the values regrouped by 128, each group times its
    scale, regrouped into rows of 4096. -/
def weightV (q : IVec S45088768 32) (sc : FVec Ideal S352256 .f32) : FVec Ideal S11008x4096 .f32 :=
  shapeCast S11008x4096
    (mulf (shapeCast S352256x128 (valuesV q) shapeCasts_S45088768_S352256x128)
      (broadcastInDim S352256x128 ![0, 1] bcast_S352256x1_S352256x128_0_1
        (broadcastInDim S352256x1 ![0] bcast_S352256_S352256x1_0 sc)))
    shapeCasts_S352256x128_S11008x4096

/-- Row o, column k holds the value of the word at flat position o * 4096 + k times the scale of its group:
    both regroupings keep the row-major position, and (o * 32 + k / 128) * 128 + k % 128 = o * 4096 + k. -/
theorem weightV_apply (q : IVec S45088768 32) (sc : FVec Ideal S352256 .f32) (o : Fin 11008) (k : Fin 4096) :
    weightV q sc (ix2 o k) = Cert.Nf4.weight q sc o k := by
  have hl : k.val % 128 < 128 := Nat.mod_lt _ (by decide)
  unfold weightV
  rw [shapeCast_apply _ shapeCasts_S352256x128_S11008x4096 (ix2 o k)
    (ix2 (Cert.Nf4.grp o k) (⟨k.val % 128, hl⟩ : Fin 128)) (by
      rw [Shape.rowMajor_val_two, Shape.rowMajor_val_two]
      show (o.val * 32 + k.val / 128) * 128 + k.val % 128 = o.val * 4096 + k.val
      omega)]
  rw [mulf_apply]
  rw [shapeCast_apply _ shapeCasts_S45088768_S352256x128 (ix2 (Cert.Nf4.grp o k) (⟨k.val % 128, hl⟩ : Fin 128))
    (ix1 (Cert.Nf4.flat o k)) (by
      rw [Shape.rowMajor_val_one, Shape.rowMajor_val_two]
      show o.val * 4096 + k.val = (o.val * 32 + k.val / 128) * 128 + k.val % 128
      omega)]
  rw [valuesV_apply]
  rw [broadcastInDim_apply (![0, 1]) bcast_S352256x1_S352256x128_0_1 _
    (ix2 (Cert.Nf4.grp o k) (⟨k.val % 128, hl⟩ : Fin 128)) (ix2 (Cert.Nf4.grp o k) (0 : Fin 1))
    (fun a => by match a with | ⟨0, _⟩ => rfl | ⟨1, _⟩ => rfl)]
  rw [broadcastInDim_apply (![0]) bcast_S352256_S352256x1_0 _
    (ix2 (Cert.Nf4.grp o k) (0 : Fin 1)) (ix1 (Cert.Nf4.grp o k))
    (fun a => by match a with | ⟨0, _⟩ => rfl)]
  rfl

/-! ## The contraction -/

/-- Left operand, axis 0: the result's axis 0. -/
theorem lhs_axis0 (j : S4x2048x11008.Idx) (k : dot_S4x2048x4096_S11008x4096_S4x2048x11008_2_1_01_0_n_n.contr.Idx) :
    (dot_S4x2048x4096_S11008x4096_S4x2048x11008_2_1_01_0_n_n.lhsIdx j k 0).val = (j 0).val := rfl
/-- Left operand, axis 1: the result's axis 1. -/
theorem lhs_axis1 (j : S4x2048x11008.Idx) (k : dot_S4x2048x4096_S11008x4096_S4x2048x11008_2_1_01_0_n_n.contr.Idx) :
    (dot_S4x2048x4096_S11008x4096_S4x2048x11008_2_1_01_0_n_n.lhsIdx j k 1).val = (j 1).val := rfl
/-- Left operand, axis 2: the contraction position. -/
theorem lhs_axis2 (j : S4x2048x11008.Idx) (k : dot_S4x2048x4096_S11008x4096_S4x2048x11008_2_1_01_0_n_n.contr.Idx) :
    (dot_S4x2048x4096_S11008x4096_S4x2048x11008_2_1_01_0_n_n.lhsIdx j k 2).val = (k ⟨0, by decide⟩).val :=
  dot_S4x2048x4096_S11008x4096_S4x2048x11008_2_1_01_0_n_n.lhsIdx_val_of_single rfl j k
/-- Right operand, axis 0: the result's axis 2. -/
theorem rhs_axis0 (j : S4x2048x11008.Idx) (k : dot_S4x2048x4096_S11008x4096_S4x2048x11008_2_1_01_0_n_n.contr.Idx) :
    (dot_S4x2048x4096_S11008x4096_S4x2048x11008_2_1_01_0_n_n.rhsIdx j k 0).val = (j 2).val := rfl
/-- Right operand, axis 1: the contraction position. -/
theorem rhs_axis1 (j : S4x2048x11008.Idx) (k : dot_S4x2048x4096_S11008x4096_S4x2048x11008_2_1_01_0_n_n.contr.Idx) :
    (dot_S4x2048x4096_S11008x4096_S4x2048x11008_2_1_01_0_n_n.rhsIdx j k 1).val = (k ⟨0, by decide⟩).val :=
  dot_S4x2048x4096_S11008x4096_S4x2048x11008_2_1_01_0_n_n.rhsIdx_val_of_single rfl j k

/-- The product at (b, s, o) is the sum over the 4096 columns of the left operand's row (b, s) against the right
    operand's row o: the contraction has one axis, re-indexed by its one coordinate. -/
theorem dot_apply (l : FVec Ideal S4x2048x4096 .f32) (r : FVec Ideal S11008x4096 .f32)
    (b : Fin 4) (s : Fin 2048) (o : Fin 11008) :
    Host.dotGeneral (F := Ideal) dot_S4x2048x4096_S11008x4096_S4x2048x11008_2_1_01_0_n_n none l r (ix3 b s o)
      = ∑ k : Fin 4096, l (ix3 b s k) * r (ix2 o k) := by
  simp only [Host.dotGeneral]
  rw [Ideal.dotGeneral_apply]
  rw [← Equiv.sum_comp (contrEquiv1 dot_S4x2048x4096_S11008x4096_S4x2048x11008_2_1_01_0_n_n 4096 rfl rfl).symm]
  refine Finset.sum_congr rfl fun k _ => ?_
  have hk := contrEquiv1_symm_val dot_S4x2048x4096_S11008x4096_S4x2048x11008_2_1_01_0_n_n 4096 rfl rfl k
  have hL : dot_S4x2048x4096_S11008x4096_S4x2048x11008_2_1_01_0_n_n.lhsIdx (ix3 b s o)
      ((contrEquiv1 dot_S4x2048x4096_S11008x4096_S4x2048x11008_2_1_01_0_n_n 4096 rfl rfl).symm k) = ix3 b s k := by
    funext a; refine Fin.ext ?_
    match a with
    | ⟨0, _⟩ => exact lhs_axis0 _ _
    | ⟨1, _⟩ => exact lhs_axis1 _ _
    | ⟨2, _⟩ => exact (lhs_axis2 _ _).trans hk
  have hR : dot_S4x2048x4096_S11008x4096_S4x2048x11008_2_1_01_0_n_n.rhsIdx (ix3 b s o)
      ((contrEquiv1 dot_S4x2048x4096_S11008x4096_S4x2048x11008_2_1_01_0_n_n 4096 rfl rfl).symm k) = ix2 o k := by
    funext a; refine Fin.ext ?_
    match a with
    | ⟨0, _⟩ => exact rhs_axis0 _ _
    | ⟨1, _⟩ => exact (rhs_axis1 _ _).trans hk
  rw [hL, hR]

/-! ## The whole result -/

/-- The program's result as one function of its four arguments: the product of the input with the
    dequantized weights, plus the bias row broadcast over the leading two axes. -/
def resultV (x : FVec Ideal S4x2048x4096 .f32) (q : IVec S45088768 32) (sc : FVec Ideal S352256 .f32)
    (bias : FVec Ideal S11008 .f32) : FVec Ideal S4x2048x11008 .f32 :=
  addf (Host.dotGeneral (F := Ideal) dot_S4x2048x4096_S11008x4096_S4x2048x11008_2_1_01_0_n_n none x (weightV q sc))
    (broadcastInDim S4x2048x11008 ![0, 1, 2] bcast_S1x1x11008_S4x2048x11008_0_1_2
      (broadcastInDim S1x1x11008 ![2] bcast_S11008_S1x1x11008_2 bias))

/-- At (b, s, o) it is the specified element. -/
theorem resultV_apply (x : FVec Ideal S4x2048x4096 .f32) (q : IVec S45088768 32) (sc : FVec Ideal S352256 .f32)
    (bias : FVec Ideal S11008 .f32) (b : Fin 4) (s : Fin 2048) (o : Fin 11008) :
    resultV x q sc bias (ix3 b s o) = Cert.Nf4.out x q sc bias b s o := by
  unfold resultV
  rw [addf_apply, dot_apply]
  rw [broadcastInDim_apply (![0, 1, 2]) bcast_S1x1x11008_S4x2048x11008_0_1_2 _ (ix3 b s o)
    (ix3 (0 : Fin 1) (0 : Fin 1) o) (fun a => by match a with | ⟨0, _⟩ => rfl | ⟨1, _⟩ => rfl | ⟨2, _⟩ => rfl)]
  rw [broadcastInDim_apply (![2]) bcast_S11008_S1x1x11008_2 _ (ix3 (0 : Fin 1) (0 : Fin 1) o) (ix1 o)
    (fun a => by match a with | ⟨0, _⟩ => rfl)]
  unfold Cert.Nf4.out
  exact congrArg (fun t => t + bias (ix1 o)) (Finset.sum_congr rfl fun k _ => by rw [weightV_apply])

/-- The program's result is the specified array. -/
theorem resultV_eq (x : FVec Ideal S4x2048x4096 .f32) (q : IVec S45088768 32) (sc : FVec Ideal S352256 .f32)
    (bias : FVec Ideal S11008 .f32) : resultV x q sc bias = Cert.Nf4.G x q sc bias := by
  funext j
  obtain ⟨b, s, o, rfl⟩ : ∃ (b : Fin 4) (s : Fin 2048) (o : Fin 11008), j = ix3 b s o := ⟨j 0, j 1, j 2, eq_ix3 j⟩
  rw [resultV_apply, Cert.Nf4.G_ix3]

/-! ## The program as one straight line of operations -/

section Line

variable {F : FTy → Type} [FloatOps F]

/-- The twenty-seven operations of the program in order: the three constants, the six operations of the clip
    (the two bounds converted and broadcast, the maximum with the lower bound, the minimum with the upper one)
    over the buffers of its one call, then the eighteen that follow it. -/
abbrev ops : List (HloOp τ sig (Elt F)) :=
  [ nullary main_cst (fun i => FloatOps.ofBits .f32 (lit0 (S16.rowMajor i))),
    nullary main_c (constantI S_ 32 0#32),
    nullary main_c_0 (constantI S_ 32 15#32),
    TRef.unary (.of main_c) main_call0.v0 id,
    TRef.unary main_call0.v0 main_call0.v1 (broadcastInDim S45088768 ![] bcast_S_S45088768),
    TRef.binary main_call0.v1 (.of main_arg1) main_call0.v2 maxsi,
    TRef.unary (.of main_c_0) main_call0.v3 id,
    TRef.unary main_call0.v3 main_call0.v4 (broadcastInDim S45088768 ![] bcast_S_S45088768),
    TRef.binary main_call0.v4 main_call0.v2 main_call0.v5 minsi,
    nullary main_c_1 (constantI S_ 32 0#32),
    unary main_c_1 main_v1 (broadcastInDim S45088768 ![] bcast_S_S45088768 : (⟨S_, .i32⟩ : BufTy).Contents (Elt F) → (⟨S45088768, .i32⟩ : BufTy).Contents (Elt F)),
    binary main_v0 main_v1 main_v2 (cmpi .slt : (⟨S45088768, .i32⟩ : BufTy).Contents (Elt F) → (⟨S45088768, .i32⟩ : BufTy).Contents (Elt F) → (⟨S45088768, .i1⟩ : BufTy).Contents (Elt F)),
    nullary main_c_2 (constantI S_ 32 16#32),
    unary main_c_2 main_v3 (broadcastInDim S45088768 ![] bcast_S_S45088768 : (⟨S_, .i32⟩ : BufTy).Contents (Elt F) → (⟨S45088768, .i32⟩ : BufTy).Contents (Elt F)),
    binary main_v0 main_v3 main_v4 (addi : (⟨S45088768, .i32⟩ : BufTy).Contents (Elt F) → (⟨S45088768, .i32⟩ : BufTy).Contents (Elt F) → (⟨S45088768, .i32⟩ : BufTy).Contents (Elt F)),
    ternary main_v2 main_v4 main_v0 main_v5 (select : (⟨S45088768, .i1⟩ : BufTy).Contents (Elt F) → (⟨S45088768, .i32⟩ : BufTy).Contents (Elt F) → (⟨S45088768, .i32⟩ : BufTy).Contents (Elt F) → (⟨S45088768, .i32⟩ : BufTy).Contents (Elt F)),
    unary main_v5 main_v6 (broadcastInDim S45088768x1 ![0] bcast_S45088768_S45088768x1_0 : (⟨S45088768, .i32⟩ : BufTy).Contents (Elt F) → (⟨S45088768x1, .i32⟩ : BufTy).Contents (Elt F)),
    binary main_cst main_v6 main_v7 ((fun x i => Host.gather gather_S16_S45088768x1_S45088768_n_0_n_n_0_1_1 x i) : (⟨S16, .f32⟩ : BufTy).Contents (Elt F) → (⟨S45088768x1, .i32⟩ : BufTy).Contents (Elt F) → (⟨S45088768, .f32⟩ : BufTy).Contents (Elt F)),
    reshape main_v7 main_v8 rfl shapeCasts_S45088768_S352256x128,
    unary main_arg2 main_v9 (broadcastInDim S352256x1 ![0] bcast_S352256_S352256x1_0 : (⟨S352256, .f32⟩ : BufTy).Contents (Elt F) → (⟨S352256x1, .f32⟩ : BufTy).Contents (Elt F)),
    unary main_v9 main_v10 (broadcastInDim S352256x128 ![0, 1] bcast_S352256x1_S352256x128_0_1 : (⟨S352256x1, .f32⟩ : BufTy).Contents (Elt F) → (⟨S352256x128, .f32⟩ : BufTy).Contents (Elt F)),
    binary main_v8 main_v10 main_v11 (mulf : (⟨S352256x128, .f32⟩ : BufTy).Contents (Elt F) → (⟨S352256x128, .f32⟩ : BufTy).Contents (Elt F) → (⟨S352256x128, .f32⟩ : BufTy).Contents (Elt F)),
    reshape main_v11 main_v12 rfl shapeCasts_S352256x128_S11008x4096,
    binary main_arg0 main_v12 main_v13 ((fun l r => Host.dotGeneral dot_S4x2048x4096_S11008x4096_S4x2048x11008_2_1_01_0_n_n none l r) : (⟨S4x2048x4096, .f32⟩ : BufTy).Contents (Elt F) → (⟨S11008x4096, .f32⟩ : BufTy).Contents (Elt F) → (⟨S4x2048x11008, .f32⟩ : BufTy).Contents (Elt F)),
    unary main_arg3 main_v14 (broadcastInDim S1x1x11008 ![2] bcast_S11008_S1x1x11008_2 : (⟨S11008, .f32⟩ : BufTy).Contents (Elt F) → (⟨S1x1x11008, .f32⟩ : BufTy).Contents (Elt F)),
    unary main_v14 main_v15 (broadcastInDim S4x2048x11008 ![0, 1, 2] bcast_S1x1x11008_S4x2048x11008_0_1_2 : (⟨S1x1x11008, .f32⟩ : BufTy).Contents (Elt F) → (⟨S4x2048x11008, .f32⟩ : BufTy).Contents (Elt F)),
    binary main_v13 main_v15 main_v16 (addf : (⟨S4x2048x11008, .f32⟩ : BufTy).Contents (Elt F) → (⟨S4x2048x11008, .f32⟩ : BufTy).Contents (Elt F) → (⟨S4x2048x11008, .f32⟩ : BufTy).Contents (Elt F)) ]

set_option maxRecDepth 1024 in
/-- The program is that line: the clip unfolded at its call, and sequencing re-associated. -/
theorem main_eq (c : Dev nD) : main (F := F) c = seq ops := by
  simp only [main, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    reshape_bufs_sub .., unary_bufs_sub .., unary_bufs_sub .., binary_bufs_sub .., reshape_bufs_sub .., binary_bufs_sub ..,
    unary_bufs_sub .., unary_bufs_sub .., binary_bufs_sub ..⟩

end Line

/-! ## The run -/

/-- After the line of operations the result buffer holds the result function of the four argument buffers. -/
theorem after_result (V : Valuation τ sig (Elt Ideal)) :
    after (ops (F := Ideal)) V (Proc.devRef .tc main_v16)
      = resultV (V (Proc.devRef .tc main_arg0)) (V (Proc.devRef .tc main_arg1)) (V (Proc.devRef .tc main_arg2))
          (V (Proc.devRef .tc main_arg3)) := by
  after_results
  rfl

/-- On every device, from any memory with zero counters, every weakly fair execution of the program terminates
    with the result buffer at the specified array of the four arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16)
        = Cert.Nf4.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c main_v16).trans (after_result _)).trans (resultV_eq _ _ _ _),
      (h c main_arg0).trans (by after_results),
      (h c main_arg1).trans (by after_results),
      (h c main_arg2).trans (by after_results),
      (h c main_arg3).trans (by after_results)⟩)
    (run_seq scopedRefs_eq scopedSems_eq defs main (fun _ => ops) main_eq (fun _ => ops_sub) m ρ)

end Cert.ReferenceIdeal.Hand

end
-- ==== Proof.lean ====
/-
  Equivalence over the extended reals of a quantized linear layer written as two kernels (dequantize, then
  multiply) with its one-line reference.

  Both compute  out[b, s, o] = (sum over k of x[b, s, k] * W[o, k]) + bias[o]  with
  W[o, k] = value(clip(q[o * 4096 + k])) * scale[(o * 4096 + k) / 128] : the kernel picks the value by a tree of
  selects over the clipped word's four low bits, the reference by indexing a table of the same sixteen numbers; the
  kernel multiplies block by block over all 4096 columns at once, the reference in one product. The same products
  and the same sum on both sides, so no finiteness of the inputs is used.
  The frames of the two kernel programs are the generated ones; the reference's frame is its run with the result
  dropped; no operation was rewritten for the reading over the extended reals, so the fourth conjunct is trivial.
-/
import proofs.«408230_j51677046505998_3_alg».proof.Defs
import proofs.«408230_j51677046505998_3_alg».proof.Proof.Gen.Kernel
import proofs.«408230_j51677046505998_3_alg».proof.Proof.Gen.Kernel.Skeleton
import proofs.«408230_j51677046505998_3_alg».proof.Proof.Gen.Kernel.Launch
import proofs.«408230_j51677046505998_3_alg».proof.Proof.Gen.Kernel.Points
import proofs.«408230_j51677046505998_3_alg».proof.Proof.Gen.Kernel.Frame
import proofs.«408230_j51677046505998_3_alg».proof.Proof.Gen.KernelIdeal
import proofs.«408230_j51677046505998_3_alg».proof.Proof.Gen.KernelIdeal.Skeleton
import proofs.«408230_j51677046505998_3_alg».proof.Proof.Gen.KernelIdeal.Launch
import proofs.«408230_j51677046505998_3_alg».proof.Proof.Gen.KernelIdeal.Points
import proofs.«408230_j51677046505998_3_alg».proof.Proof.Gen.KernelIdeal.Frame
import proofs.«408230_j51677046505998_3_alg».proof.Proof.Gen.ReferenceIdeal
import proofs.«408230_j51677046505998_3_alg».proof.Proof.Gen.Pre_finite_inputs
import proofs.«408230_j51677046505998_3_alg».proof.Proof.KernelRun
import proofs.«408230_j51677046505998_3_alg».proof.Proof.KernelValue
import proofs.«408230_j51677046505998_3_alg».proof.Proof.Reference
import Idealize.ShloMosaic.Adequacy
import Idealize.ShloMosaic.Init

noncomputable section

namespace Cert.Proof

open Idealize.ShloMosaic Idealize.SL.Sem

/-- The word-level program runs and keeps its arguments: the generated frame. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Hand.run m ρ)

/-- No operation was rewritten on the way to the extended reals. -/
theorem preserves : Cert.preserves_Kernel_KernelIdeal := trivial

/-- From memories agreeing on the four arguments both programs end with the result array at G of the
    arguments: the kernel's two stages compose to G, and the reference's operations are G read index by index. -/
theorem algebraic : Cert.algebraic_KernelIdeal_ReferenceIdeal := by
  intro m ρ m' ρ' _ hagree
  refine ⟨fun c => Cert.Nf4.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Hand.kernel_value m ρ c), (h c).2⟩)
      (Cert.KernelIdeal.Hand.run_main (F := Ideal) m ρ)
  · refine (θ_run Cert.ReferenceIdeal.defs _ _).mono (fun r h c => ⟨(h c).1.trans ?_, (h c).2⟩)
      (Cert.ReferenceIdeal.Hand.run m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
